-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  main_v3
-- ==== Kernel.lean ====
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S4x4096x512, .f32⟩
  | .hbm, ⟨10, _⟩ => ⟨S4x4096x512, .f32⟩
  | .hbm, ⟨11, _⟩ => ⟨S4x4096x512, .bf16⟩
  | .hbm, ⟨12, _⟩ => ⟨S4x4096x4096, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x4096x512.size a
  hwx0_0 : ∀ i : grid0.Coords, EltTy.bits .bf16 = 32 ∨ (Rect.block (s := S4x4096x512) S1x1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S4x4096x512.size a
  hwx0_1 : ∀ i : grid0.Coords, EltTy.bits .bf16 = 32 ∨ (Rect.block (s := S4x4096x512) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x4096.size a
  hwx0_2 : ∀ i : grid0.Coords, EltTy.bits .f32 = 32 ∨ (Rect.block (s := S4x4096x4096) S1x1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v8) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S4x4096x512, .f32⟩
  | .hbm, ⟨10, _⟩ => ⟨S4x4096x512, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bcast_S_S4x4096x4096 : S_.BroadcastsInDim S4x4096x4096 (![] : Fin 0 → Fin S4x4096x4096.rank)
  dot_S4x4096x512_S4x4096x512_S4x4096x4096_2_2_1_1_0_0_wf : DotDims.WF S4x4096x512 S4x4096x512 S4x4096x4096 [2] [2] [1] [1] [0] [0]

variable [Facts₀]

def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf

class Facts : Prop extends Facts₀ where

variable [Facts]
-- ==== Proof.LibSharedFrame.lean ====
/-
  The frame run of a one-region TensorCore program whose pipeline hands ONE array to several input windows.

  The pipeline's launch holds every distinct array behind the windows whole, at the full share. When two input
  windows read the same array that full share must be dealt among them before the pipeline starts: each window
  fetches its blocks under a fraction of the array, and an output window keeps its own array outright. How the
  shares are dealt is the one extra obligation (`hsplit`); the rest is the plain frame run: the body keeps nothing
  between grid points but the scoped buffers that are no staging buffer, every unscoped buffer that is no window's
  array bypasses the region and is read back unchanged, and every window's array ends at what the write-backs
  of the grid points leave in it (`Dat.arrAt` at the last point).
-/
import Idealize.ShloMosaic.Lib.Pipeline.Frame

noncomputable section

namespace Idealize.ShloMosaic.Pipeline.SharedArrays

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run when windows may share arrays. The layout facts are those of a launch without the arrays'
    distinctness; `hsplit` deals the distinct arrays, each whole at the region-entry contents `V`, among the
    windows at the shares the proof data name; `hin` / `hout` say that the body's invariant is entered from, and
    gives back, the scoped buffers that are no staging buffer. Every array of the pipeline ends at
    `Dat.arrAt … N`, every other unscoped buffer at its region-entry contents. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.SharedArrays

end
-- ==== Proof.K.Frame.lean ====
/-
  The frame of the pairwise-similarity kernel, for every float instance.

  @main first normalises the rows of `x` on the host — `xn = x / max(sqrt(Σ_d x²), ε)`, narrowed to bf16 — and then
  runs ONE pipelined region over the grid (b, i, j) ∈ 4 × 4 × 4. At a grid point the body reads two blocks of the SAME
  array `xn`: rows [1024·i, 1024·(i+1)) of batch b through window 0 and rows [1024·j, 1024·(j+1)) of batch b through
  window 1, multiplies the first by the transpose of the second on the matrix unit, scales by -1/2, exponentiates, and
  stores the 1024 × 1024 tile into window 2, block (b, i, j) of the result.

  Because windows 0 and 1 read one array, the array's full share is dealt between them at the launch, half each
  (`arrays_dealt`); nothing writes that array, so either half suffices for the fetches. Everything else is the plain
  frame argument: the body's triple on whole staging buffers (`sound_kernel`), what each input buffer holds at every
  point — its block, fetched there or left from the point before (`found_rows`, `found_cols`) —, the body obligation,
  the launch (`run_main`), and the frame: no host operation and no write-back touches `x` (`frame`).
-/
import proofs.«175117_j35759897706677_1_alg».proof.Proof.Gen.Kernel.Launch
import proofs.«175117_j35759897706677_1_alg».proof.Proof.Gen.Kernel.Skeleton
import proofs.«175117_j35759897706677_1_alg».proof.Proof.Gen.Kernel.Points
import proofs.«175117_j35759897706677_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eleven host operations that
    normalise the rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 (the rows of the tile) holds its block at every point, fetched there or not: where the pipeline does not
    fetch it the block index has not moved, and the body leaves the buffer as it found it. -/
theorem found_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1 (the columns of the tile) likewise. -/
theorem found_cols_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole input block, as the body loads it. -/
abbrev rIn : Rect S1x1024x512 := Rect.unit (s := S1x1024x512) ![0, 0, 0] S1x1024x512.size inb_S1x1024x512_S1x1024x512_0_0_0
/-- The whole output tile, as the body stores it. -/
abbrev rOut : Rect S1x1024x1024 := Rect.unit (s := S1x1024x1024) ![0, 0, 0] S1x1024x1024.size inb_S1x1024x1024_S1x1024x1024_0_0_0

/-- The output buffer after the body, from the two input blocks: its one store, of `exp(-½ · rows · colsᵀ)`. -/
def tile (x0 : Vec F S1x1024x512 .bf16) (x1 : Vec F S1x1024x512 .bf16) : Vec F S1x1024x1024 .f32 :=
  View.canon [⟨rOut, k0_pay1 (View.ld x0 rIn) (View.ld x1 rIn)⟩]

/-- The one store covers the buffer. -/
theorem cover_tile (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole staging buffers, the inputs' at read contents `x0`, `x1` and the output's at anything, runs to the
    continuation holding the inputs' as they were and the output's at `tile x0 x1`. (The body also loads the output
    buffer before storing to it; the value is not used.) -/
theorem sound_kernel (c : Dev nD) (E : Set ℕ) (i : grid0.Coords) (arg3 : Memref sig .tc .vmem S1x1024x512 .bf16) (harg3 : arg3.IsWhole) (arg4 : Memref sig .tc .vmem S1x1024x512 .bf16) (harg4 : arg4.IsWhole) (arg5 : Memref sig .tc .vmem S1x1024x1024 .f32) (harg5 : arg5.IsWhole)
    (x0 : Vec F S1x1024x512 .bf16) (x1 : Vec F S1x1024x512 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (tile x0 x1)) -∗ K ⟨⟩))
      ⊢ wp frame (wpE (defs₀ (F := F)) Variants.none c none) E (cc0__cosine_kernel i arg3 harg3 arg4 harg4 arg5 harg5) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-! ## The pipeline's proof data -/

/-- The proof data on core `c`: the arrays as the region finds them; after the body at point `t` each input's buffer
    at its block and the output's at `tile` of the two blocks; between points only the scoped buffers that are no
    staging buffer; the array the two input windows share held by halves; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) : (dats m 0 c).after 2 t = tile (iblk m c 0 t) (iblk m c 1 t) := by dsimp only [dats]

theorem found_rows (c : Dev nD) (t : Fin cfg0.N) (d) : (dats m 0 c).before 0 t d = iblk m c 0 t :=
  found_rows_of m (dats m 0 c) (A_eq m c 0) (after_rows m c) t d
theorem found_cols (c : Dev nD) (t : Fin cfg0.N) (d) : (dats m 0 c).before 1 t d = iblk m c 1 t :=
  found_cols_of m (dats m 0 c) (A_eq m c 1) (after_cols m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_rows, found_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the shared array -/

/-- The two distinct arrays behind the three windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v8) ↦{fullShare} W main_v8) ∗ (((c : Thread nD τ).loc main_v9) ↦{fullShare} W main_v9)) :=
  bigSep_eq_bigSepL_of_eq [main_v8, main_v9] (by decide) (by decide) _

/-- At the launch the normalised array, whole at the full share, is dealt to the two input windows by halves; the
    result's array goes to its window outright. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have h0 : (cfg0.win 0).arr.view.set = Finset.univ := (arr_whole0 0).set_eq_univ
  have h2 : (cfg0.win 2).arr.view.set = Finset.univ := (arr_whole0 2).set_eq_univ
  have s0 : (dats m 0 c).share 0 = fullShare.left := rfl
  have s1 : (dats m 0 c).share 1 = fullShare.right := rfl
  have s2 : (dats m 0 c).share 2 = fullShare := rfl
  rw [h0, h2, s0, s1, s2]
  show iprop((((c : Thread nD τ).loc main_v8) ↦{fullShare} V m c main_v8) ∗ (((c : Thread nD τ).loc main_v9) ↦{fullShare} V m c main_v9))
    ⊢ (iprop((((c : Thread nD τ).loc main_v8) ↦{fullShare.left} V m c main_v8) ∗ (((c : Thread nD τ).loc main_v8) ↦{fullShare.right} V m c main_v8)
        ∗ (((c : Thread nD τ).loc main_v9) ↦{fullShare} V m c main_v9)) : sProp 𝕄)
  refine (sep_mono (pointsTo_share (PosShare.mem_left_op_right fullShare)).1 .rfl).trans ?_
  iintro ⟨⟨Ha, Hb⟩, H9⟩
  isplitl [Ha]; · iexact Ha
  isplitl [Hb]; · iexact Hb
  iexact H9

/-! ## The run and the frame -/

set_option backward.isDefEq.respectTransparency.types false in
/-- From any memory with zero counters every weakly fair execution of @main terminates, nothing faulting; the result's
    array ends at what the write-backs of the 64 grid points leave in it, the normalised array and every buffer no window
    stages at what the region found. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_dealt m) (hin := fun _ => .rfl) (hout := fun _ => .rfl)

/-- THE FRAME: the argument `x` is no window's array and no host operation's result, so it ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c))
    (run_main m ρ)

end Cert.Proof.K

end
-- ==== Proof.KI.Frame.lean ====
/-
  The frame of the pairwise-similarity kernel, for every float instance.

  @main first normalises the rows of `x` on the host — `xn = x / max(sqrt(Σ_d x²), ε)`, narrowed to bf16 — and then
  runs ONE pipelined region over the grid (b, i, j) ∈ 4 × 4 × 4. At a grid point the body reads two blocks of the SAME
  array `xn`: rows [1024·i, 1024·(i+1)) of batch b through window 0 and rows [1024·j, 1024·(j+1)) of batch b through
  window 1, multiplies the first by the transpose of the second on the matrix unit, scales by -1/2, exponentiates, and
  stores the 1024 × 1024 tile into window 2, block (b, i, j) of the result.

  Because windows 0 and 1 read one array, the array's full share is dealt between them at the launch, half each
  (`arrays_dealt`); nothing writes that array, so either half suffices for the fetches. Everything else is the plain
  frame argument: the body's triple on whole staging buffers (`sound_kernel`), what each input buffer holds at every
  point — its block, fetched there or left from the point before (`found_rows`, `found_cols`) —, the body obligation,
  the launch (`run_main`), and the frame: no host operation and no write-back touches `x` (`frame`).
-/
import proofs.«175117_j35759897706677_1_alg».proof.Proof.Gen.KernelIdeal.Launch
import proofs.«175117_j35759897706677_1_alg».proof.Proof.Gen.KernelIdeal.Skeleton
import proofs.«175117_j35759897706677_1_alg».proof.Proof.Gen.KernelIdeal.Points
import proofs.«175117_j35759897706677_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eleven host operations that
    normalise the rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument `x`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 (the rows of the tile) holds its block at every point, fetched there or not: where the pipeline does not
    fetch it the block index has not moved, and the body leaves the buffer as it found it. -/
theorem found_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1 (the columns of the tile) likewise. -/
theorem found_cols_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole input block, as the body loads it. -/
abbrev rIn : Rect S1x1024x512 := Rect.unit (s := S1x1024x512) ![0, 0, 0] S1x1024x512.size inb_S1x1024x512_S1x1024x512_0_0_0
/-- The whole output tile, as the body stores it. -/
abbrev rOut : Rect S1x1024x1024 := Rect.unit (s := S1x1024x1024) ![0, 0, 0] S1x1024x1024.size inb_S1x1024x1024_S1x1024x1024_0_0_0

/-- The output buffer after the body, from the two input blocks: its one store, of `exp(-½ · rows · colsᵀ)`. -/
def tile (x0 : Vec F S1x1024x512 .bf16) (x1 : Vec F S1x1024x512 .bf16) : Vec F S1x1024x1024 .f32 :=
  View.canon [⟨rOut, k0_pay1 (View.ld x0 rIn) (View.ld x1 rIn)⟩]

/-- The one store covers the buffer. -/
theorem cover_tile (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole staging buffers, the inputs' at read contents `x0`, `x1` and the output's at anything, runs to the
    continuation holding the inputs' as they were and the output's at `tile x0 x1`. (The body also loads the output
    buffer before storing to it; the value is not used.) -/
theorem sound_kernel (c : Dev nD) (E : Set ℕ) (i : grid0.Coords) (arg3 : Memref sig .tc .vmem S1x1024x512 .bf16) (harg3 : arg3.IsWhole) (arg4 : Memref sig .tc .vmem S1x1024x512 .bf16) (harg4 : arg4.IsWhole) (arg5 : Memref sig .tc .vmem S1x1024x1024 .f32) (harg5 : arg5.IsWhole)
    (x0 : Vec F S1x1024x512 .bf16) (x1 : Vec F S1x1024x512 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (tile x0 x1)) -∗ K ⟨⟩))
      ⊢ wp frame (wpE (defs₀ (F := F)) Variants.none c none) E (cc0__cosine_kernel i arg3 harg3 arg4 harg4 arg5 harg5) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-! ## The pipeline's proof data -/

/-- The proof data on core `c`: the arrays as the region finds them; after the body at point `t` each input's buffer
    at its block and the output's at `tile` of the two blocks; between points only the scoped buffers that are no
    staging buffer; the array the two input windows share held by halves; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) : (dats m 0 c).after 2 t = tile (iblk m c 0 t) (iblk m c 1 t) := by dsimp only [dats]

theorem found_rows (c : Dev nD) (t : Fin cfg0.N) (d) : (dats m 0 c).before 0 t d = iblk m c 0 t :=
  found_rows_of m (dats m 0 c) (A_eq m c 0) (after_rows m c) t d
theorem found_cols (c : Dev nD) (t : Fin cfg0.N) (d) : (dats m 0 c).before 1 t d = iblk m c 1 t :=
  found_cols_of m (dats m 0 c) (A_eq m c 1) (after_cols m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_rows, found_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the shared array -/

/-- The two distinct arrays behind the three windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v8) ↦{fullShare} W main_v8) ∗ (((c : Thread nD τ).loc main_v9) ↦{fullShare} W main_v9)) :=
  bigSep_eq_bigSepL_of_eq [main_v8, main_v9] (by decide) (by decide) _

/-- At the launch the normalised array, whole at the full share, is dealt to the two input windows by halves; the
    result's array goes to its window outright. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have h0 : (cfg0.win 0).arr.view.set = Finset.univ := (arr_whole0 0).set_eq_univ
  have h2 : (cfg0.win 2).arr.view.set = Finset.univ := (arr_whole0 2).set_eq_univ
  have s0 : (dats m 0 c).share 0 = fullShare.left := rfl
  have s1 : (dats m 0 c).share 1 = fullShare.right := rfl
  have s2 : (dats m 0 c).share 2 = fullShare := rfl
  rw [h0, h2, s0, s1, s2]
  show iprop((((c : Thread nD τ).loc main_v8) ↦{fullShare} V m c main_v8) ∗ (((c : Thread nD τ).loc main_v9) ↦{fullShare} V m c main_v9))
    ⊢ (iprop((((c : Thread nD τ).loc main_v8) ↦{fullShare.left} V m c main_v8) ∗ (((c : Thread nD τ).loc main_v8) ↦{fullShare.right} V m c main_v8)
        ∗ (((c : Thread nD τ).loc main_v9) ↦{fullShare} V m c main_v9)) : sProp 𝕄)
  refine (sep_mono (pointsTo_share (PosShare.mem_left_op_right fullShare)).1 .rfl).trans ?_
  iintro ⟨⟨Ha, Hb⟩, H9⟩
  isplitl [Ha]; · iexact Ha
  isplitl [Hb]; · iexact Hb
  iexact H9

/-! ## The run and the frame -/

set_option backward.isDefEq.respectTransparency.types false in
/-- From any memory with zero counters every weakly fair execution of @main terminates, nothing faulting; the result's
    array ends at what the write-backs of the 64 grid points leave in it, the normalised array and every buffer no window
    stages at what the region found. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_dealt m) (hin := fun _ => .rfl) (hout := fun _ => .rfl)

/-- THE FRAME: the argument `x` is no window's array and no host operation's result, so it ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c))
    (run_main m ρ)

end Cert.Proof.KI

end
-- ==== Proof.KI.Value.lean ====
/-
  What the kernel's result array holds after the run, at the ideal values.

  Write `xn` for the normalised array the region reads through both input windows, and `c = -1/2`. The body's tile at
  grid point (b, i, j) is, at local entry (p, q), `exp(c · Σ_k rows(p, k) · cols(q, k))` — the matrix unit's product of the
  row block with the transposed column block, into zero, is that sum over the contracted coordinate. The row block is
  rows 1024·i + p of batch b, the column block rows 1024·j + q of batch b, and the tile is written back to block (b, i, j)
  of the result; so every point writes ITS BLOCK of one whole-array function,

      pairExp xn (b, r, s) = exp(c · Σ_k xn(b, r, k) · xn(b, s, k)),

  and the 64 blocks tile the result. Hence the result array ends at `pairExp xn`.
-/
import proofs.«175117_j35759897706677_1_alg».proof.Proof.KI.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## The whole-array function -/

/-- Row `r` of batch `b` at the contracted coordinate `k`, for the result entry (b, r, s). -/
abbrev rowIdx (i : S4x4096x4096.Idx) (k : Fin 512) : S4x4096x512.Idx := fun a => match a with
  | ⟨0, _⟩ => ⟨(i 0).val, (i 0).isLt⟩
  | ⟨1, _⟩ => ⟨(i 1).val, (i 1).isLt⟩
  | ⟨2, _⟩ => ⟨k.val, k.isLt⟩
/-- Row `s` of batch `b` at the contracted coordinate `k`, for the result entry (b, r, s). -/
abbrev colIdx (i : S4x4096x4096.Idx) (k : Fin 512) : S4x4096x512.Idx := fun a => match a with
  | ⟨0, _⟩ => ⟨(i 0).val, (i 0).isLt⟩
  | ⟨1, _⟩ => ⟨(i 2).val, (i 2).isLt⟩
  | ⟨2, _⟩ => ⟨k.val, k.isLt⟩

/-- `exp(-½ · ⟨row r, row s⟩)` over the rows of each batch of `xn`. -/
def pairExp (xn : S4x4096x512.Idx → EReal) : S4x4096x4096.Idx → EReal := fun i =>
  Ideal.exp (Ideal.ofBits .f32 0xBF000000#32 * ∑ k : Fin 512, xn (rowIdx i k) * xn (colIdx i k))

/-! ## The matrix unit's product at an entry -/

theorem lhs_mm_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_mm_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_mm_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_mm_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Rows times transposed rows into zero, at entry (p, q): the sum over the contracted coordinate. -/
theorem rowsByRows_apply (A B : FVec Ideal S1024x512 .bf16) (p q : Fin 1024) :
    FloatOps.matmul dot_S1024x512_S1024x512_S1024x1024_1_1_0_0_n_n none A B (constant S1024x1024 .f32 0x00000000#32) (ix2 p q)
      = ∑ k : Fin 512, A (ix2 p k) * B (ix2 q k) := by
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-! ## The body's tile at an entry -/

/-- The tile the body stores, at local entry (p, q), from the row block `x0` and the column block `x1`. -/
theorem tile_entry (x0 x1 : Vec Ideal S1x1024x512 .bf16) (u : Fin 1) (p q : Fin 1024) :
    k0_pay1 (F := Ideal) x0 x1 (ix3 u p q)
      = Ideal.exp (Ideal.ofBits .f32 0xBF000000#32 * ∑ k : Fin 512, x0 (ix3 (0 : Fin 1) p k) * x1 (ix3 (0 : Fin 1) q k)) := by
  unfold k0_pay1
  refine (shapeCast_ab_1ab_apply _ _ u p q).trans ?_
  refine congrArg (fun z => Ideal.exp (Ideal.ofBits .f32 0xBF000000#32 * z)) ?_
  refine (rowsByRows_apply _ _ p q).trans ?_
  refine Finset.sum_congr rfl fun k _ => ?_
  rw [shapeCast_1ab_ab_apply, shapeCast_1ab_ab_apply]

/-! ## From tiles to the array -/

variable (m : (ℓ : Loc nD τ sig) → Buf (Elt Ideal) ℓ) (ρ : Dev nD → PrngReg)

theorem offs_zero : (![0, 0, 0] : Fin 3 → Nat) = fun _ => 0 := funext fun a => by fin_cases a <;> rfl

/-- The printed index maps, decided over the 64 grid points: the row window follows the result's block on the batch and
    row axes, the column window follows it on the batch axis and takes the result's COLUMN block as its row block, and
    neither moves along the contracted axis. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0 :=
  (by decide +kernel : ∀ t : Fin grid0.N, _)

/-- Every block of the result is some grid point's. -/
theorem idx_onto : ∀ (q0 : Fin 4) (q1 : Fin 4) (q2 : Fin 4), ∃ t : Fin cfg0.N, win0_2.index t = ![q0.val, q1.val, q2.val] :=
  (by decide +kernel : ∀ (q0 : Fin 4) (q1 : Fin 4) (q2 : Fin 4), ∃ t : Fin grid0.N, win0_2.index t = ![q0.val, q1.val, q2.val])

/-- The normalised array as the region finds it, at its literal type. -/
abbrev xn (c : Dev nD) : Vec Ideal S4x4096x512 .bf16 := V m c main_v8

/-- WHAT POINT `t` WRITES BACK is block `t` of `pairExp` of the normalised array. -/
theorem flushed_eq (c : Dev nD) (t : Fin cfg0.N) :
    (dats m 0 c).flushed 2 t = ((cfg0.win 2).blk t).view.read (Elt Ideal) (pairExp (V m c main_v8)) := by
  show (cfg0.win 2).cut (grid0.coords t) ((dats m 0 c).after 2 t) = _
  rw [after_tile]
  unfold tile
  rw [View.canon_unit_zero offs_zero]
  simp only [View.ld_unit_zero (S := S1x1024x512) offs_zero]
  obtain ⟨e0, e1, e2, e3, e4, e5⟩ := idx_facts t
  funext j
  show k0_pay1 (F := Ideal) (iblk m c 0 t) (iblk m c 1 t) j = pairExp (V m c main_v8) (((cfg0.win 2).blk t).view.emb j)
  rw [eq_ix3 j]
  refine (tile_entry (iblk m c 0 t) (iblk m c 1 t) (j 0) (j 1) (j 2)).trans ?_
  unfold pairExp
  refine congrArg (fun z => Ideal.exp (Ideal.ofBits .f32 0xBF000000#32 * z)) (Finset.sum_congr rfl fun k _ => ?_)
  show xn m c (((cfg0.win 0).blk t).view.emb (ix3 (0 : Fin 1) (j 1) k)) * xn m c (((cfg0.win 1).blk t).view.emb (ix3 (0 : Fin 1) (j 2) k))
    = xn m c (rowIdx (((cfg0.win 2).blk t).view.emb (ix3 (j 0) (j 1) (j 2))) k) * xn m c (colIdx (((cfg0.win 2).blk t).view.emb (ix3 (j 0) (j 1) (j 2))) k)
  have hj0 : (j 0).val < 1 := (j 0).isLt
  have h0 : ((cfg0.win 0).blk t).view.emb (ix3 (0 : Fin 1) (j 1) k) = rowIdx (((cfg0.win 2).blk t).view.emb (ix3 (j 0) (j 1) (j 2))) k := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 512 + 1 * k.val = k.val; omega
  have h1 : ((cfg0.win 1).blk t).view.emb (ix3 (0 : Fin 1) (j 2) k) = colIdx (((cfg0.win 2).blk t).view.emb (ix3 (j 0) (j 1) (j 2))) k := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 1024 + 1 * (j 2).val = win0_2.index t (2 : Fin 3) * 1024 + 1 * (j 2).val; omega
    | ⟨2, _⟩ => show win0_1.index t (2 : Fin 3) * 512 + 1 * k.val = k.val; omega
  rw [h0, h1]

/-- An index of the result is in point `t`'s block iff each coordinate is in the block's range on its axis. -/
theorem mem_blk (t : Fin cfg0.N) (i : S4x4096x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v9).slice (win0_2.rect t)).set ↔ _
  rw [View.set_slice_whole, Rect.mem_set_unit]
  exact Iff.rfl

/-- The 64 blocks tile the result: entry (b, r, s) lies in the block of the point with block index (b, r / 1024, s / 1024). -/
theorem covered (i : S4x4096x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE RESULT ARRAY after the run. -/
theorem final (c : Dev nD) : (dats m 0 c).arrAt 2 cfg0.N = pairExp (V m c main_v8) :=
  (dats m 0 c).arrAt_eq_of_cover 2 _ (fun t _ => flushed_eq m c t) covered

/-! ## The normalised array, and the run re-posted -/

/-- The host operations before the region, as one function of the argument: each row divided by the larger of its
    Euclidean norm and ε, then narrowed (at the ideal values the narrowing changes nothing). -/
def normalise (x : FVec Ideal S4x4096x512 .f32) : FVec Ideal S4x4096x512 .bf16 :=
  truncf .bf16 (Host.divf x (broadcastInDim S4x4096x512 ![0, 1, 2] bcast_S4x4096x1_S4x4096x512_0_1_2
    (maximumf (Host.sqrt (broadcastInDim S4x4096x1 ![0, 1] bcast_S4x4096_S4x4096x1_0_1
        (Host.reduceAdd (mulf x x) (constant (F := Ideal) S_ .f32 0x00000000#32) reducesTo_S4x4096x512_S4x4096_d2 h_S_)))
      (broadcastInDim S4x4096x1 ![] bcast_S_S4x4096x1 (constant (F := Ideal) S_ .f32 0x322BCC77#32))))) bitsLt_bf16_f32

/-- The region finds the normalised argument in the array both input windows read. -/
theorem xn_eq (c : Dev nD) : (V m c main_v8 : S4x4096x512.Idx → EReal) = normalise (m ((c : Thread nD τ).loc main_arg0)) := by
  dsimp only [V, hostOps0]; after_results; rfl

/-- The run re-posted: the result at `pairExp` of the normalised argument, the argument unchanged. -/
theorem run : θ_run defs (onTc (τ := τ) (main (F := Ideal))) ⟨m, fun _ => 0, ρ⟩ fun r => ∀ c : Dev nD,
      r.2.mem ((c.tc : Thread nD τ).loc main_v9) = pairExp (normalise (m ((c.tc : Thread nD τ).loc main_arg0)))
      ∧ r.2.mem ((c.tc : Thread nD τ).loc main_arg0) = m ((c.tc : Thread nD τ).loc main_arg0) :=
  (θ_run defs _ _).mono (fun r h c => ⟨(((h c).1 2).trans (final m c)).trans (congrArg pairExp (xn_eq m c)),
      ((h c).2 main_arg0 (Pipeline.mem_restRefs_of main_arg0 (by decide) (by decide))).trans (V_main_arg0 m c)⟩)
    (run_main m ρ)

end Cert.Proof.KI

end
-- ==== Proof.Bridge.lean ====
/-
  The two idealized programs compute one function.

  The reference normalises the rows of `x` by the same host operations as the kernel's program (the kernel's also narrows
  the result to bf16, which at the ideal values is the identity), contracts the normalised array with itself over the last
  axis, batch by batch, scales by -1/2 and exponentiates: at entry (b, r, s) that is `exp(-½ · Σ_k xn(b, r, k) · xn(b, s, k))`,
  the value the kernel's 64 tiles leave there. The sums run over the same coordinate in the same order, so no law of the
  extended reals is needed beyond reading both sides at an index.
-/
import proofs.«175117_j35759897706677_1_alg».proof.Defs
import proofs.«175117_j35759897706677_1_alg».proof.Proof.KI.Value
import proofs.«175117_j35759897706677_1_alg».proof.Proof.Gen.ReferenceIdeal.Read
import proofs.«175117_j35759897706677_1_alg».proof.Proof.Gen.Pre_finite_inputs

noncomputable section

namespace Cert.Proof.Bridge

open Idealize.ShloMosaic Idealize.ShloMosaic.TcCoe Idealize.SL.Sem
open Cert.Proof.KI

/-- The reference's normalised array is the kernel program's. -/
theorem ref_normalised (x : FVec Ideal Cert.ReferenceIdeal.S4x4096x512 .f32) :
    Cert.ReferenceIdeal.Read.val_main_v7 (F := Ideal) x = normalise x := rfl

/-- The reference's result, index by index, is `pairExp` of the normalised argument. -/
theorem ref_result (x : FVec Ideal Cert.ReferenceIdeal.S4x4096x512 .f32) :
    Cert.ReferenceIdeal.Read.val_main_v11 (F := Ideal) x = pairExp (normalise x) := by
  funext i
  rw [Cert.ReferenceIdeal.Read.val_main_v11_apply, Cert.ReferenceIdeal.Read.val_main_v10_apply,
    Cert.ReferenceIdeal.Read.val_main_v9_apply, Cert.ReferenceIdeal.Read.val_main_cst_1_apply,
    Cert.ReferenceIdeal.Read.val_main_v8_apply, ref_normalised]
  unfold pairExp
  refine congrArg (fun z => Ideal.exp (Ideal.ofBits .f32 0xBF000000#32 * z)) (Finset.sum_congr rfl fun k _ => ?_)
  have hl : Cert.ReferenceIdeal.Read.lidx_main_v8 i k = rowIdx i k :=
    funext fun a => Fin.ext (by match a with | ⟨0, _⟩ => rfl | ⟨1, _⟩ => rfl | ⟨2, _⟩ => rfl)
  have hr : Cert.ReferenceIdeal.Read.ridx_main_v8 i k = colIdx i k :=
    funext fun a => Fin.ext (by match a with | ⟨0, _⟩ => rfl | ⟨1, _⟩ => rfl | ⟨2, _⟩ => rfl)
  rw [hl, hr]

/-- From memories agreeing on `x` both programs run, and end with the same result array. -/
theorem algebraic : Cert.algebraic_KernelIdeal_ReferenceIdeal := by
  intro m ρ m' ρ' _ hagree
  refine ⟨fun c => pairExp (normalise (m ((c.tc : Thread Cert.KernelIdeal.nD Cert.KernelIdeal.τ).loc Cert.KernelIdeal.main_arg0))),
    Cert.Proof.KI.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, ref_result, hagree c]

end Cert.Proof.Bridge

end
-- ==== Proof.lean ====
/-
  Pairwise `exp(-½ · cosine similarity)` over the rows of each batch of `x : f32[4, 4096, 512]`: the pipelined kernel
  against its jnp reference, over the extended reals.

  Both programs first divide each row of `x` by `max(‖row‖₂, ε)`. The kernel's program then runs one region over the grid
  (b, i, j) ∈ 4 × 4 × 4 whose body multiplies a 1024-row block by the transpose of another 1024-row block of the SAME
  normalised array, scales by -1/2, exponentiates, and writes the 1024 × 1024 tile to block (b, i, j) of the result; the
  reference contracts the normalised array with itself batch by batch, scales and exponentiates. Entry (b, r, s) of either
  result is `exp(-½ · Σ_k xn(b, r, k) · xn(b, s, k))`.

  * The frames of the word-level kernel and of its idealization: `K/Frame.lean`, `KI/Frame.lean` — one text for every float
    instance. The two input windows read one array, whose share is dealt between them at the launch
    (`LibSharedFrame.lean`).
  * The reference's frame: its run, the result dropped.
  * The idealization rewrote nothing, so there is nothing to preserve.
  * The results agree: `KI/Value.lean` (the kernel's 64 tiles are the blocks of one whole-array function) and
    `Bridge.lean` (the reference, read operation by operation, is that function).
-/
import proofs.«175117_j35759897706677_1_alg».proof.Defs
import proofs.«175117_j35759897706677_1_alg».proof.Proof.Gen.Kernel
import proofs.«175117_j35759897706677_1_alg».proof.Proof.Gen.KernelIdeal
import proofs.«175117_j35759897706677_1_alg».proof.Proof.Gen.ReferenceIdeal
import proofs.«175117_j35759897706677_1_alg».proof.Proof.Gen.Pre_finite_inputs
import proofs.«175117_j35759897706677_1_alg».proof.Proof.K.Frame
import proofs.«175117_j35759897706677_1_alg».proof.Proof.KI.Frame
import proofs.«175117_j35759897706677_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Proof.K.frame m ρ

theorem frame_kernel_ideal : Cert.frame_KernelIdeal := fun m ρ _ => Cert.Proof.KI.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.Proof.Bridge.algebraic⟩

end Cert.Proof

end
